-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S64x4096 .f32) (main_arg1 : FVec F S4096x4096 .f32) (main_arg2 : FVec F S4096x4096 .f32) (main_arg3 : FVec F S4096x4096 .f32) (main_arg4 : FVec F S4096x4096 .f32) (main_arg5 : FVec F S4096x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S64x4096 : Shape := ⟨2, ![64, 4096]⟩
abbrev S4096x4096 : Shape := ⟨2, ![4096, 4096]⟩
abbrev S256x4096 : Shape := ⟨2, ![256, 4096]⟩
abbrev S64x256 : Shape := ⟨2, ![64, 256]⟩
abbrev S4096x256 : Shape := ⟨2, ![4096, 256]⟩

abbrev nBuf : Space → Nat
  | .hbm => 10
  | .vmem => 23
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S64x4096, .f32⟩
  | .hbm, ⟨7, _⟩ => ⟨S64x4096, .f32⟩
  | .hbm, ⟨8, _⟩ => ⟨S64x4096, .f32⟩
  | .hbm, ⟨9, _⟩ => ⟨S64x4096, .f32⟩
  | .local _ .vmem, ⟨0, _⟩ => ⟨S64x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x4096, .f32⟩
  | .local _ .vmem, ⟨16, _⟩ => ⟨S64x4096, .f32⟩
  | .local _ .vmem, ⟨17, _⟩ => ⟨S4096x256, .f32⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | .local _ .vmem, ⟨21, _⟩ => ⟨S64x256, .f32⟩
  | .local _ .vmem, ⟨22, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0_0 : Ref sig .tc := ⟨.hbm, 6, rfl⟩
abbrev main_call0_v0_1 : Ref sig .tc := ⟨.hbm, 7, rfl⟩
abbrev main_call0_v0_2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S64x256_S64x256_0_0 : ∀ a, (![0, 0] : Fin 2 → Nat) a + S64x256.size a ≤ S64x256.size a
  h_S64x256 : 0 < S64x256.numel
  shapeCasts_S64x4096_S64x4096 : S64x4096.ShapeCasts S64x4096
  inb_S4096x256_S4096x256_0_0 : ∀ a, (![0, 0] : Fin 2 → Nat) a + S4096x256.size a ≤ S4096x256.size a
  h_S4096x256 : 0 < S4096x256.numel
  shapeCasts_S64x256_S64x256 : S64x256.ShapeCasts S64x256
  dot_S64x4096_S256x4096_S64x256_1_1_0_0_n_n_wf : DotDims.WF S64x4096 S256x4096 S64x256 [1] [1] [0] [0] [] []
  dot_S64x4096_S4096x256_S64x256_1_0_0_1_n_n_wf : DotDims.WF S64x4096 S4096x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x4096.size a
  hwx0_4 : ∀ i : grid0.Coords, EltTy.bits .f32 = 32 ∨ (Rect.block (s := S64x4096) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x4096.size a
  hwx0_5 : ∀ i : grid0.Coords, EltTy.bits .f32 = 32 ∨ (Rect.block (s := S64x4096) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x4096.size a
  hwx0_6 : ∀ i : grid0.Coords, EltTy.bits .f32 = 32 ∨ (Rect.block (s := S64x4096) S64x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S64x4096.size a
  hwx1_0 : ∀ i : grid1.Coords, EltTy.bits .f32 = 32 ∨ (Rect.block (s := S64x4096) S64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x4096.size a
  hwx1_1 : ∀ i : grid1.Coords, EltTy.bits .f32 = 32 ∨ (Rect.block (s := S64x4096) S64x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .f32 = 32 ∨ (Rect.block (s := S64x4096) S64x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x4096.size a
  hwx1_3 : ∀ i : grid1.Coords, EltTy.bits .f32 = 32 ∨ (Rect.block (s := S4096x4096) S4096x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S4096x4096.size a
  hwx1_4 : ∀ i : grid1.Coords, EltTy.bits .f32 = 32 ∨ (Rect.block (s := S4096x4096) S4096x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x256.size a ≤ S64x4096.size a
  hwx1_5 : ∀ i : grid1.Coords, EltTy.bits .f32 = 32 ∨ (Rect.block (s := S64x4096) S64x256.size (cc1_transform_5 i) (hinb1_5 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_0) S64x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_1) S64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0_2) S64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v0_0) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_1) S64x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_2) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S4096x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S64x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x4096 : Shape := ⟨2, ![64, 4096]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S64x4096, .f32⟩
  | .hbm, ⟨8, _⟩ => ⟨S64x4096, .f32⟩
  | .hbm, ⟨9, _⟩ => ⟨S4096x4096, .f32⟩
  | .hbm, ⟨10, _⟩ => ⟨S64x4096, .f32⟩
  | .hbm, ⟨11, _⟩ => ⟨S64x4096, .f32⟩
  | .hbm, ⟨12, _⟩ => ⟨S64x4096, .f32⟩
  | .hbm, ⟨13, _⟩ => ⟨S4096x4096, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S64x4096, .f32⟩
  | .hbm, ⟨18, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S64x4096_S4096x4096_S64x4096_1_0_0_1_n_n_wf : DotDims.WF S64x4096 S4096x4096 S64x4096 [1] [0] [0] [1] [] []

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

class Facts : Prop extends Facts₀ where

variable [Facts]
-- ==== Proof.Payloads.lean ====
/-
  What the two kernel bodies store, read at one entry, on the extended reals.

  A change of float format is the identity, and a matrix unit's product into a zero accumulator is the plain sum over the
  contracted axis. So the first body's three stores are, at entry (p, q) of a [64, 256] block,
    tanh (∑ k, x p k · w q k),   ∑ k, x p k · w q k,   ∑ k, x p k · w q k
  (x the [64, 4096] activations, w a [256, 4096] block of weight rows: both operands are contracted along their second axis),
  and the second body's store is
    (h p q + tanh (∑ k, yu p k · lu k q)) + tanh (∑ k, yd p k · ld k q)
  (yu, yd the [64, 4096] intermediate products, lu, ld [4096, 256] blocks of operator columns).
-/
import proofs.«163209_g29257317220555_retrytranche2_756_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx
open scoped BigOperators

/-! ## The row-by-row product: both operands contracted along their second axis -/

theorem rowsL_0 (i : S64x256.Idx) (q : dot_S64x4096_S256x4096_S64x256_1_1_0_0_n_n.contr.Idx) :
    (dot_S64x4096_S256x4096_S64x256_1_1_0_0_n_n.lhsIdx i q 0).val = (i 0).val := by
  unfold DotDims.lhsIdx
  rw [dif_neg (show ¬(0 : Fin S64x4096.rank) ∈ dot_S64x4096_S256x4096_S64x256_1_1_0_0_n_n.lhsBatch by decide), dif_pos (show (0 : Fin S64x4096.rank) ∈ dot_S64x4096_S256x4096_S64x256_1_1_0_0_n_n.lhsNonContracting by decide)]
  rfl
theorem rowsL_1 (i : S64x256.Idx) (q : dot_S64x4096_S256x4096_S64x256_1_1_0_0_n_n.contr.Idx) :
    (dot_S64x4096_S256x4096_S64x256_1_1_0_0_n_n.lhsIdx i q 1).val = (q ⟨0, by decide⟩).val :=
  dot_S64x4096_S256x4096_S64x256_1_1_0_0_n_n.lhsIdx_val_of_single rfl i q
theorem rowsR_0 (i : S64x256.Idx) (q : dot_S64x4096_S256x4096_S64x256_1_1_0_0_n_n.contr.Idx) :
    (dot_S64x4096_S256x4096_S64x256_1_1_0_0_n_n.rhsIdx i q 0).val = (i 1).val := by
  unfold DotDims.rhsIdx
  rw [dif_neg (show ¬(0 : Fin S256x4096.rank) ∈ dot_S64x4096_S256x4096_S64x256_1_1_0_0_n_n.rhsBatch by decide), dif_pos (show (0 : Fin S256x4096.rank) ∈ dot_S64x4096_S256x4096_S64x256_1_1_0_0_n_n.rhsNonContracting by decide)]
  rfl
theorem rowsR_1 (i : S64x256.Idx) (q : dot_S64x4096_S256x4096_S64x256_1_1_0_0_n_n.contr.Idx) :
    (dot_S64x4096_S256x4096_S64x256_1_1_0_0_n_n.rhsIdx i q 1).val = (q ⟨0, by decide⟩).val :=
  dot_S64x4096_S256x4096_S64x256_1_1_0_0_n_n.rhsIdx_val_of_single rfl i q

/-- Entry (p, q) of the product of `x` with the transpose of `w`: row p of `x` against row q of `w`. -/
theorem rows_matmul_apply (x : FVec Ideal S64x4096 .bf16) (w : FVec Ideal S256x4096 .bf16) (p : Fin 64) (q : Fin 256) :
    matmul dot_S64x4096_S256x4096_S64x256_1_1_0_0_n_n none x w (constant S64x256 .f32 0x00000000#32) (ix2 p q)
      = ∑ k : Fin 4096, x (ix2 p k) * w (ix2 q k) := by
  simp only [matmul]
  rw [Ideal.matmul_constant_zero_apply, ← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx (ix2 p q) ((contrEquiv1 dot_S64x4096_S256x4096_S64x256_1_1_0_0_n_n 4096 rfl rfl).symm k) = ix2 p k := funext fun a => Fin.ext (by
    match a with
    | ⟨0, _⟩ => exact rowsL_0 _ _
    | ⟨1, _⟩ => exact (rowsL_1 _ _).trans hk)
  have er : dot_S64x4096_S256x4096_S64x256_1_1_0_0_n_n.rhsIdx (ix2 p q) ((contrEquiv1 dot_S64x4096_S256x4096_S64x256_1_1_0_0_n_n 4096 rfl rfl).symm k) = ix2 q k := funext fun a => Fin.ext (by
    match a with
    | ⟨0, _⟩ => exact rowsR_0 _ _
    | ⟨1, _⟩ => exact (rowsR_1 _ _).trans hk)
  rw [el, er]

/-! ## The plain product: rows of the left operand against columns of the right -/

theorem colsL_0 (i : S64x256.Idx) (q : dot_S64x4096_S4096x256_S64x256_1_0_0_1_n_n.contr.Idx) :
    (dot_S64x4096_S4096x256_S64x256_1_0_0_1_n_n.lhsIdx i q 0).val = (i 0).val := by
  unfold DotDims.lhsIdx
  rw [dif_neg (show ¬(0 : Fin S64x4096.rank) ∈ dot_S64x4096_S4096x256_S64x256_1_0_0_1_n_n.lhsBatch by decide), dif_pos (show (0 : Fin S64x4096.rank) ∈ dot_S64x4096_S4096x256_S64x256_1_0_0_1_n_n.lhsNonContracting by decide)]
  rfl
theorem colsL_1 (i : S64x256.Idx) (q : dot_S64x4096_S4096x256_S64x256_1_0_0_1_n_n.contr.Idx) :
    (dot_S64x4096_S4096x256_S64x256_1_0_0_1_n_n.lhsIdx i q 1).val = (q ⟨0, by decide⟩).val :=
  dot_S64x4096_S4096x256_S64x256_1_0_0_1_n_n.lhsIdx_val_of_single rfl i q
theorem colsR_0 (i : S64x256.Idx) (q : dot_S64x4096_S4096x256_S64x256_1_0_0_1_n_n.contr.Idx) :
    (dot_S64x4096_S4096x256_S64x256_1_0_0_1_n_n.rhsIdx i q 0).val = (q ⟨0, by decide⟩).val :=
  dot_S64x4096_S4096x256_S64x256_1_0_0_1_n_n.rhsIdx_val_of_single rfl i q
theorem colsR_1 (i : S64x256.Idx) (q : dot_S64x4096_S4096x256_S64x256_1_0_0_1_n_n.contr.Idx) :
    (dot_S64x4096_S4096x256_S64x256_1_0_0_1_n_n.rhsIdx i q 1).val = (i 1).val := by
  unfold DotDims.rhsIdx
  rw [dif_neg (show ¬(1 : Fin S4096x256.rank) ∈ dot_S64x4096_S4096x256_S64x256_1_0_0_1_n_n.rhsBatch by decide), dif_pos (show (1 : Fin S4096x256.rank) ∈ dot_S64x4096_S4096x256_S64x256_1_0_0_1_n_n.rhsNonContracting by decide)]
  rfl

/-- Entry (p, q) of the product of `y` with `l`: row p of `y` against column q of `l`. -/
theorem cols_matmul_apply (y : FVec Ideal S64x4096 .bf16) (l : FVec Ideal S4096x256 .bf16) (p : Fin 64) (q : Fin 256) :
    matmul dot_S64x4096_S4096x256_S64x256_1_0_0_1_n_n none y l (constant S64x256 .f32 0x00000000#32) (ix2 p q)
      = ∑ k : Fin 4096, y (ix2 p k) * l (ix2 k q) := by
  simp only [matmul]
  rw [Ideal.matmul_constant_zero_apply, ← Equiv.sum_comp (contrEquiv1 dot_S64x4096_S4096x256_S64x256_1_0_0_1_n_n 4096 rfl rfl).symm]
  refine Finset.sum_congr rfl fun k _ => ?_
  have hk := contrEquiv1_symm_val dot_S64x4096_S4096x256_S64x256_1_0_0_1_n_n 4096 rfl rfl k
  have el : dot_S64x4096_S4096x256_S64x256_1_0_0_1_n_n.lhsIdx (ix2 p q) ((contrEquiv1 dot_S64x4096_S4096x256_S64x256_1_0_0_1_n_n 4096 rfl rfl).symm k) = ix2 p k := funext fun a => Fin.ext (by
    match a with
    | ⟨0, _⟩ => exact colsL_0 _ _
    | ⟨1, _⟩ => exact (colsL_1 _ _).trans hk)
  have er : dot_S64x4096_S4096x256_S64x256_1_0_0_1_n_n.rhsIdx (ix2 p q) ((contrEquiv1 dot_S64x4096_S4096x256_S64x256_1_0_0_1_n_n 4096 rfl rfl).symm k) = ix2 k q := funext fun a => Fin.ext (by
    match a with
    | ⟨0, _⟩ => exact (colsR_0 _ _).trans hk
    | ⟨1, _⟩ => exact colsR_1 _ _)
  rw [el, er]

/-! ## The first body's three stores -/

/-- The squashed projection: tanh of row p of the activations against row q of the weight block. -/
theorem squashed_apply (x : Vec Ideal S64x4096 .f32) (w : Vec Ideal S256x4096 .f32) (p : Fin 64) (q : Fin 256) :
    k0_pay2 x w (ix2 p q) = Ideal.tanh (∑ k : Fin 4096, x (ix2 p k) * w (ix2 q k)) := by
  unfold k0_pay2 k0_pay1
  show Ideal.tanh (matmul (F := Ideal) dot_S64x4096_S256x4096_S64x256_1_1_0_0_n_n none _ _ (constant S64x256 .f32 0x00000000#32) (ix2 p q)) = _
  rw [rows_matmul_apply]
  rfl

/-- The two plain projections: row p of the activations against row q of the weight block. -/
theorem projected_apply (x : Vec Ideal S64x4096 .f32) (w : Vec Ideal S256x4096 .f32) (p : Fin 64) (q : Fin 256) :
    k0_pay3 x w (ix2 p q) = ∑ k : Fin 4096, x (ix2 p k) * w (ix2 q k) := by
  unfold k0_pay3 k0_pay1
  show matmul (F := Ideal) dot_S64x4096_S256x4096_S64x256_1_1_0_0_n_n none _ _ (constant S64x256 .f32 0x00000000#32) (ix2 p q) = _
  rw [rows_matmul_apply]
  rfl
theorem projected'_apply (x : Vec Ideal S64x4096 .f32) (w : Vec Ideal S256x4096 .f32) (p : Fin 64) (q : Fin 256) :
    k0_pay4 x w (ix2 p q) = ∑ k : Fin 4096, x (ix2 p k) * w (ix2 q k) := by
  unfold k0_pay4 k0_pay1
  show matmul (F := Ideal) dot_S64x4096_S256x4096_S64x256_1_1_0_0_n_n none _ _ (constant S64x256 .f32 0x00000000#32) (ix2 p q) = _
  rw [rows_matmul_apply]
  rfl

/-! ## The second body's store -/

/-- The block of the first term plus the two squashed propagated terms, in the order the body adds them. -/
theorem combined_apply (yu : Vec Ideal S64x4096 .f32) (lu : Vec Ideal S4096x256 .f32) (yd : Vec Ideal S64x4096 .f32)
    (ld : Vec Ideal S4096x256 .f32) (h : Vec Ideal S64x256 .f32) (p : Fin 64) (q : Fin 256) :
    k1_pay1 yu lu yd ld h (ix2 p q)
      = (h (ix2 p q) + Ideal.tanh (∑ k : Fin 4096, yu (ix2 p k) * lu (ix2 k q)))
        + Ideal.tanh (∑ k : Fin 4096, yd (ix2 p k) * ld (ix2 k q)) := by
  unfold k1_pay1
  simp only [shapeCast_self]
  show (h (ix2 p q) + Ideal.tanh (matmul (F := Ideal) dot_S64x4096_S4096x256_S64x256_1_0_0_1_n_n none _ _ (constant S64x256 .f32 0x00000000#32) (ix2 p q)))
      + Ideal.tanh (matmul (F := Ideal) dot_S64x4096_S4096x256_S64x256_1_0_0_1_n_n none _ _ (constant S64x256 .f32 0x00000000#32) (ix2 p q)) = _
  rw [cols_matmul_apply, cols_matmul_apply]
  rfl

end Cert.KernelIdeal.Entry

end
-- ==== Proof.Spec.lean ====
/-
  The layer as functions of whole arrays, entry by entry, on the extended reals.

  `rowDot x w d j` is row d of `x` against row j of `w`: entry (d, j) of x · wᵀ.
  `colDot y l d j` is row d of `y` against column j of `l`: entry (d, j) of y · l.
  The layer's output at (d, j) is
    (tanh (x · wsᵀ) + tanh ((x · wuᵀ) · lu)) + tanh ((x · wdᵀ) · ld),
  the three terms added in that order.
-/
import Idealize.ShloMosaic.Lib.ValueIdx

noncomputable section

namespace Cert.Layer

open Idealize.ShloMosaic Idealize.ShloMosaic.ValueIdx
open scoped BigOperators

/-- A rank-2 array from a function of its two coordinates. -/
def ofCoords {n0 n1 : Nat} (f : Fin n0 → Fin n1 → EReal) : (⟨2, ![n0, n1]⟩ : Shape).Idx → EReal :=
  fun i => f ⟨(i 0).val, idx2_lt0 i⟩ ⟨(i 1).val, idx2_lt1 i⟩

theorem ofCoords_ix2 {n0 n1 : Nat} (f : Fin n0 → Fin n1 → EReal) (a : Fin n0) (b : Fin n1) :
    ofCoords f (ix2 a b) = f a b := rfl

/-- Row d of `x` against row j of `w`. -/
def rowDot (x : (⟨2, ![64, 4096]⟩ : Shape).Idx → EReal) (w : (⟨2, ![4096, 4096]⟩ : Shape).Idx → EReal) (d : Fin 64) (j : Fin 4096) : EReal :=
  ∑ k : Fin 4096, x (ix2 d k) * w (ix2 j k)

/-- Row d of `y` against column j of `l`. -/
def colDot (y : (⟨2, ![64, 4096]⟩ : Shape).Idx → EReal) (l : (⟨2, ![4096, 4096]⟩ : Shape).Idx → EReal) (d : Fin 64) (j : Fin 4096) : EReal :=
  ∑ k : Fin 4096, y (ix2 d k) * l (ix2 k j)

/-- The squashed projection tanh (x · wᵀ). -/
def squashed (x : (⟨2, ![64, 4096]⟩ : Shape).Idx → EReal) (w : (⟨2, ![4096, 4096]⟩ : Shape).Idx → EReal) : (⟨2, ![64, 4096]⟩ : Shape).Idx → EReal :=
  ofCoords fun d j => Ideal.tanh (rowDot x w d j)

/-- The plain projection x · wᵀ. -/
def projected (x : (⟨2, ![64, 4096]⟩ : Shape).Idx → EReal) (w : (⟨2, ![4096, 4096]⟩ : Shape).Idx → EReal) : (⟨2, ![64, 4096]⟩ : Shape).Idx → EReal :=
  ofCoords (rowDot x w)

/-- The first term plus the two squashed propagated terms, added in that order. -/
def combined (h yu yd : (⟨2, ![64, 4096]⟩ : Shape).Idx → EReal) (lu ld : (⟨2, ![4096, 4096]⟩ : Shape).Idx → EReal) : (⟨2, ![64, 4096]⟩ : Shape).Idx → EReal :=
  ofCoords fun d j => (h (ix2 d j) + Ideal.tanh (colDot yu lu d j)) + Ideal.tanh (colDot yd ld d j)

/-- The whole layer. -/
def layer (x : (⟨2, ![64, 4096]⟩ : Shape).Idx → EReal) (lu ld ws wu wd : (⟨2, ![4096, 4096]⟩ : Shape).Idx → EReal) : (⟨2, ![64, 4096]⟩ : Shape).Idx → EReal :=
  combined (squashed x ws) (projected x wu) (projected x wd) lu ld

/-- The layer at entry (d, j), written out. -/
theorem layer_ix2 (x : (⟨2, ![64, 4096]⟩ : Shape).Idx → EReal) (lu ld ws wu wd : (⟨2, ![4096, 4096]⟩ : Shape).Idx → EReal) (d : Fin 64) (j : Fin 4096) :
    layer x lu ld ws wu wd (ix2 d j)
      = (Ideal.tanh (∑ k : Fin 4096, x (ix2 d k) * ws (ix2 j k))
          + Ideal.tanh (∑ k' : Fin 4096, (∑ k : Fin 4096, x (ix2 d k) * wu (ix2 k' k)) * lu (ix2 k' j)))
        + Ideal.tanh (∑ k' : Fin 4096, (∑ k : Fin 4096, x (ix2 d k) * wd (ix2 k' k)) * ld (ix2 k' j)) := rfl

end Cert.Layer

end
-- ==== Proof.PhaseA.lean ====
/-
  The first region: what its three output arrays hold when it ends, as functions of the arrays it is entered with.

  The grid has 16 points. At point t the body sees the whole [64, 4096] activations, rows 256 t … 256 t + 255 of each of the
  three weight matrices, and writes columns 256 t … 256 t + 255 of each output. Entry (p, q) of the block written at point t is
  therefore entry (p, 256 t + q) of the whole-array function: row p of the activations against row 256 t + q of the weight
  matrix (squashed by tanh for the first output). The sixteen column blocks tile the [64, 4096] outputs.
-/
import proofs.«163209_g29257317220555_retrytranche2_756_3_alg».proof.Proof.Gen.KernelIdeal.Frame
import proofs.«163209_g29257317220555_retrytranche2_756_3_alg».proof.Proof.Payloads
import proofs.«163209_g29257317220555_retrytranche2_756_3_alg».proof.Proof.Spec
import Idealize.ShloMosaic.Lib.Pipeline.Value
import Idealize.ShloMosaic.Lib.ValueIdx

set_option maxRecDepth 16384

noncomputable section

namespace Cert.KernelIdeal.PhaseA

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the activations' is the whole array; a weight block is row block t; an
    output block is column block t. -/
theorem where0 : ∀ t : Fin cfg0.N,
    win0_0.index t (0 : Fin 2) = 0
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = t.val
    ∧ win0_5.index t (0 : Fin 2) = 0
    ∧ win0_5.index t (1 : Fin 2) = t.val
    ∧ win0_6.index t (0 : Fin 2) = 0
    ∧ win0_6.index t (1 : Fin 2) = t.val :=
  (by decide +kernel : ∀ t : Fin grid0.N, _)

/-- The activations' block is the whole array. -/
theorem acts_apply (c : Dev nD) (t : Fin cfg0.N) (p : Fin 64) (k : Fin 4096) :
    (iblk0 V c 0 t : Vec Ideal S64x4096 .f32) (ix2 p k) = (V c main_arg0 : S64x4096.Idx → EReal) (ix2 p k) := by
  obtain ⟨e0, e1, -⟩ := where0 t
  unfold iblk0
  rw [View.read_apply]
  show V c main_arg0 _ = V c main_arg0 _
  congr 1
  funext a
  apply Fin.ext
  match a with
  | ⟨0, _⟩ => show win0_0.index t (0 : Fin 2) * 64 + 1 * p.val = p.val; rw [e0]; omega
  | ⟨1, _⟩ => show win0_0.index t (1 : Fin 2) * 4096 + 1 * k.val = k.val; rw [e1]; omega

/-- Window 1's block at point t is rows 256 t … 256 t + 255 of its weight matrix. -/
theorem rows1_apply (c : Dev nD) (t : Fin cfg0.N) (q : Fin 256) (k : Fin 4096) (r : Fin 4096) (hr : r.val = 256 * t.val + q.val) :
    (iblk0 V c 1 t : Vec Ideal S256x4096 .f32) (ix2 q k) = (V c main_arg3 : S4096x4096.Idx → EReal) (ix2 r k) := by
  have e := where0 t
  unfold iblk0
  rw [View.read_apply]
  show V c main_arg3 _ = V c main_arg3 _
  congr 1
  funext a
  apply Fin.ext
  match a with
  | ⟨0, _⟩ => show win0_1.index t (0 : Fin 2) * 256 + 1 * q.val = r.val; omega
  | ⟨1, _⟩ => show win0_1.index t (1 : Fin 2) * 4096 + 1 * k.val = k.val; omega

/-- Window 2's block at point t is rows 256 t … 256 t + 255 of its weight matrix. -/
theorem rows2_apply (c : Dev nD) (t : Fin cfg0.N) (q : Fin 256) (k : Fin 4096) (r : Fin 4096) (hr : r.val = 256 * t.val + q.val) :
    (iblk0 V c 2 t : Vec Ideal S256x4096 .f32) (ix2 q k) = (V c main_arg4 : S4096x4096.Idx → EReal) (ix2 r k) := by
  have e := where0 t
  unfold iblk0
  rw [View.read_apply]
  show V c main_arg4 _ = V c main_arg4 _
  congr 1
  funext a
  apply Fin.ext
  match a with
  | ⟨0, _⟩ => show win0_2.index t (0 : Fin 2) * 256 + 1 * q.val = r.val; omega
  | ⟨1, _⟩ => show win0_2.index t (1 : Fin 2) * 4096 + 1 * k.val = k.val; omega

/-- Window 3's block at point t is rows 256 t … 256 t + 255 of its weight matrix. -/
theorem rows3_apply (c : Dev nD) (t : Fin cfg0.N) (q : Fin 256) (k : Fin 4096) (r : Fin 4096) (hr : r.val = 256 * t.val + q.val) :
    (iblk0 V c 3 t : Vec Ideal S256x4096 .f32) (ix2 q k) = (V c main_arg5 : S4096x4096.Idx → EReal) (ix2 r k) := by
  have e := where0 t
  unfold iblk0
  rw [View.read_apply]
  show V c main_arg5 _ = V c main_arg5 _
  congr 1
  funext a
  apply Fin.ext
  match a with
  | ⟨0, _⟩ => show win0_3.index t (0 : Fin 2) * 256 + 1 * q.val = r.val; omega
  | ⟨1, _⟩ => show win0_3.index t (1 : Fin 2) * 4096 + 1 * k.val = k.val; omega

/-- What point t writes back through output window 4: column block t of the whole-array function. -/
theorem flushed_squashed (c : Dev nD) (t : Fin cfg0.N) :
    (dat0 V c).flushed 4 t = ((cfg0.win 4).blk t).view.read (Elt Ideal) (Layer.squashed (V c main_arg0) (V c main_arg3)) := by
  show (cfg0.win 4).cut (grid0.coords t) ((dat0 V c).after 4 t) = _
  rw [after0_4]
  unfold out0_4
  rw [View.canon_unit_zero hz]
  simp only [View.ld_unit_zero (S := S64x4096) hz, View.ld_unit_zero (S := S256x4096) hz]
  funext y
  obtain ⟨p, q, rfl⟩ : ∃ (p : Fin 64) (q : Fin 256), y = ix2 p q := ⟨y 0, y 1, eq_ix2 y⟩
  have e := where0 t
  have ht : t.val < 16 := t.isLt
  have hr : 256 * t.val + q.val < 4096 := by have := q.isLt; omega
  rw [View.read_apply]
  have hemb : ((cfg0.win 4).blk t).view.emb (ix2 p q) = (ix2 p (⟨256 * t.val + q.val, hr⟩ : Fin 4096) : S64x4096.Idx) := by
    funext a
    apply Fin.ext
    match a with
    | ⟨0, _⟩ => show win0_4.index t (0 : Fin 2) * 64 + 1 * p.val = p.val; omega
    | ⟨1, _⟩ => show win0_4.index t (1 : Fin 2) * 256 + 1 * q.val = 256 * t.val + q.val; omega
  show k0_pay2 (iblk0 V c 0 t) (iblk0 V c 1 t) (ix2 p q) = Layer.squashed (V c main_arg0) (V c main_arg3) (((cfg0.win 4).blk t).view.emb (ix2 p q))
  rw [hemb]
  refine (Entry.squashed_apply _ _ p q).trans ?_
  show _ = Ideal.tanh (Layer.rowDot (V c main_arg0) (V c main_arg3) p ⟨256 * t.val + q.val, hr⟩)
  unfold Layer.rowDot
  refine congrArg Ideal.tanh (Finset.sum_congr rfl fun k _ => ?_)
  rw [acts_apply V c t p k, rows1_apply V c t q k ⟨256 * t.val + q.val, hr⟩ rfl]

/-- What point t writes back through output window 5: column block t of the whole-array function. -/
theorem flushed_projectedU (c : Dev nD) (t : Fin cfg0.N) :
    (dat0 V c).flushed 5 t = ((cfg0.win 5).blk t).view.read (Elt Ideal) (Layer.projected (V c main_arg0) (V c main_arg4)) := by
  show (cfg0.win 5).cut (grid0.coords t) ((dat0 V c).after 5 t) = _
  rw [after0_5]
  unfold out0_5
  rw [View.canon_unit_zero hz]
  simp only [View.ld_unit_zero (S := S64x4096) hz, View.ld_unit_zero (S := S256x4096) hz]
  funext y
  obtain ⟨p, q, rfl⟩ : ∃ (p : Fin 64) (q : Fin 256), y = ix2 p q := ⟨y 0, y 1, eq_ix2 y⟩
  have e := where0 t
  have ht : t.val < 16 := t.isLt
  have hr : 256 * t.val + q.val < 4096 := by have := q.isLt; omega
  rw [View.read_apply]
  have hemb : ((cfg0.win 5).blk t).view.emb (ix2 p q) = (ix2 p (⟨256 * t.val + q.val, hr⟩ : Fin 4096) : S64x4096.Idx) := by
    funext a
    apply Fin.ext
    match a with
    | ⟨0, _⟩ => show win0_5.index t (0 : Fin 2) * 64 + 1 * p.val = p.val; omega
    | ⟨1, _⟩ => show win0_5.index t (1 : Fin 2) * 256 + 1 * q.val = 256 * t.val + q.val; omega
  show k0_pay3 (iblk0 V c 0 t) (iblk0 V c 2 t) (ix2 p q) = Layer.projected (V c main_arg0) (V c main_arg4) (((cfg0.win 5).blk t).view.emb (ix2 p q))
  rw [hemb]
  refine (Entry.projected_apply _ _ p q).trans ?_
  show _ = (Layer.rowDot (V c main_arg0) (V c main_arg4) p ⟨256 * t.val + q.val, hr⟩)
  unfold Layer.rowDot
  refine (Finset.sum_congr rfl fun k _ => ?_)
  rw [acts_apply V c t p k, rows2_apply V c t q k ⟨256 * t.val + q.val, hr⟩ rfl]

/-- What point t writes back through output window 6: column block t of the whole-array function. -/
theorem flushed_projectedD (c : Dev nD) (t : Fin cfg0.N) :
    (dat0 V c).flushed 6 t = ((cfg0.win 6).blk t).view.read (Elt Ideal) (Layer.projected (V c main_arg0) (V c main_arg5)) := by
  show (cfg0.win 6).cut (grid0.coords t) ((dat0 V c).after 6 t) = _
  rw [after0_6]
  unfold out0_6
  rw [View.canon_unit_zero hz]
  simp only [View.ld_unit_zero (S := S64x4096) hz, View.ld_unit_zero (S := S256x4096) hz]
  funext y
  obtain ⟨p, q, rfl⟩ : ∃ (p : Fin 64) (q : Fin 256), y = ix2 p q := ⟨y 0, y 1, eq_ix2 y⟩
  have e := where0 t
  have ht : t.val < 16 := t.isLt
  have hr : 256 * t.val + q.val < 4096 := by have := q.isLt; omega
  rw [View.read_apply]
  have hemb : ((cfg0.win 6).blk t).view.emb (ix2 p q) = (ix2 p (⟨256 * t.val + q.val, hr⟩ : Fin 4096) : S64x4096.Idx) := by
    funext a
    apply Fin.ext
    match a with
    | ⟨0, _⟩ => show win0_6.index t (0 : Fin 2) * 64 + 1 * p.val = p.val; omega
    | ⟨1, _⟩ => show win0_6.index t (1 : Fin 2) * 256 + 1 * q.val = 256 * t.val + q.val; omega
  show k0_pay4 (iblk0 V c 0 t) (iblk0 V c 3 t) (ix2 p q) = Layer.projected (V c main_arg0) (V c main_arg5) (((cfg0.win 6).blk t).view.emb (ix2 p q))
  rw [hemb]
  refine (Entry.projected'_apply _ _ p q).trans ?_
  show _ = (Layer.rowDot (V c main_arg0) (V c main_arg5) p ⟨256 * t.val + q.val, hr⟩)
  unfold Layer.rowDot
  refine (Finset.sum_congr rfl fun k _ => ?_)
  rw [acts_apply V c t p k, rows3_apply V c t q k ⟨256 * t.val + q.val, hr⟩ rfl]

/-- Every entry of the [64, 4096] output lies in some point's column block: column j in block j / 256. -/
theorem cover_squashed (i : S64x4096.Idx) : ∃ t : Fin cfg0.N, (cfg0.win 4).flush t = true ∧ i ∈ ((cfg0.win 4).blk t).view.set := by
  have hi0 : (i 0).val < 64 := idx2_lt0 i
  have hi1 : (i 1).val < 4096 := idx2_lt1 i
  have hN : cfg0.N = 16 := N_0
  let t : Fin cfg0.N := ⟨(i 1).val / 256, by rw [hN]; omega⟩
  have e := where0 t
  have htv : t.val = (i 1).val / 256 := rfl
  refine ⟨t, flush0_4 t, ?_⟩
  show i ∈ ((View.whole main_call0_v0_0).slice (win0_4.rect t)).set
  rw [View.set_slice_whole, Rect.mem_set_unit]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 256 ≤ (i 1).val ∧ (i 1).val < win0_4.index t (1 : Fin 2) * 256 + 256; omega

/-- Every entry of the [64, 4096] output lies in some point's column block: column j in block j / 256. -/
theorem cover_projectedU (i : S64x4096.Idx) : ∃ t : Fin cfg0.N, (cfg0.win 5).flush t = true ∧ i ∈ ((cfg0.win 5).blk t).view.set := by
  have hi0 : (i 0).val < 64 := idx2_lt0 i
  have hi1 : (i 1).val < 4096 := idx2_lt1 i
  have hN : cfg0.N = 16 := N_0
  let t : Fin cfg0.N := ⟨(i 1).val / 256, by rw [hN]; omega⟩
  have e := where0 t
  have htv : t.val = (i 1).val / 256 := rfl
  refine ⟨t, flush0_5 t, ?_⟩
  show i ∈ ((View.whole main_call0_v0_1).slice (win0_5.rect t)).set
  rw [View.set_slice_whole, Rect.mem_set_unit]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 256 ≤ (i 1).val ∧ (i 1).val < win0_5.index t (1 : Fin 2) * 256 + 256; omega

/-- Every entry of the [64, 4096] output lies in some point's column block: column j in block j / 256. -/
theorem cover_projectedD (i : S64x4096.Idx) : ∃ t : Fin cfg0.N, (cfg0.win 6).flush t = true ∧ i ∈ ((cfg0.win 6).blk t).view.set := by
  have hi0 : (i 0).val < 64 := idx2_lt0 i
  have hi1 : (i 1).val < 4096 := idx2_lt1 i
  have hN : cfg0.N = 16 := N_0
  let t : Fin cfg0.N := ⟨(i 1).val / 256, by rw [hN]; omega⟩
  have e := where0 t
  have htv : t.val = (i 1).val / 256 := rfl
  refine ⟨t, flush0_6 t, ?_⟩
  show i ∈ ((View.whole main_call0_v0_2).slice (win0_6.rect t)).set
  rw [View.set_slice_whole, Rect.mem_set_unit]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 256 ≤ (i 1).val ∧ (i 1).val < win0_6.index t (1 : Fin 2) * 256 + 256; omega

/-- The array behind output window 4 when the region ends. -/
theorem final_squashed (c : Dev nD) : (dat0 V c).arrAt 4 cfg0.N = Layer.squashed (V c main_arg0) (V c main_arg3) :=
  (dat0 V c).arrAt_eq_of_cover 4 (Layer.squashed (V c main_arg0) (V c main_arg3)) (fun t _ => flushed_squashed V c t) (cover_squashed)

/-- The array behind output window 5 when the region ends. -/
theorem final_projectedU (c : Dev nD) : (dat0 V c).arrAt 5 cfg0.N = Layer.projected (V c main_arg0) (V c main_arg4) :=
  (dat0 V c).arrAt_eq_of_cover 5 (Layer.projected (V c main_arg0) (V c main_arg4)) (fun t _ => flushed_projectedU V c t) (cover_projectedU)

/-- The array behind output window 6 when the region ends. -/
theorem final_projectedD (c : Dev nD) : (dat0 V c).arrAt 6 cfg0.N = Layer.projected (V c main_arg0) (V c main_arg5) :=
  (dat0 V c).arrAt_eq_of_cover 6 (Layer.projected (V c main_arg0) (V c main_arg5)) (fun t _ => flushed_projectedD V c t) (cover_projectedD)

end Cert.KernelIdeal.PhaseA

end
-- ==== Proof.PhaseB.lean ====
/-
  The second region: what its output array holds when it ends, as a function of the arrays it is entered with.

  The grid has 16 points. At point t the body sees columns 256 t … 256 t + 255 of the first term, the two whole [64, 4096]
  intermediate products, columns 256 t … 256 t + 255 of each of the two operators, and writes columns 256 t … 256 t + 255 of the
  output: entry (p, q) of the block is entry (p, 256 t + q) of
    (h + tanh (yu · lu)) + tanh (yd · ld).
  The sixteen column blocks tile the [64, 4096] output.
-/
import proofs.«163209_g29257317220555_retrytranche2_756_3_alg».proof.Proof.Gen.KernelIdeal.Frame
import proofs.«163209_g29257317220555_retrytranche2_756_3_alg».proof.Proof.Payloads
import proofs.«163209_g29257317220555_retrytranche2_756_3_alg».proof.Proof.Spec
import Idealize.ShloMosaic.Lib.Pipeline.Value
import Idealize.ShloMosaic.Lib.ValueIdx

set_option maxRecDepth 16384

noncomputable section

namespace Cert.KernelIdeal.PhaseB

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the intermediate products' is the whole array; the first term's, the
    operators' and the output's is column block t. -/
theorem where1 : ∀ t : Fin cfg1.N,
    win1_0.index t (0 : Fin 2) = 0
    ∧ win1_0.index t (1 : Fin 2) = t.val
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = t.val
    ∧ win1_4.index t (0 : Fin 2) = 0
    ∧ win1_4.index t (1 : Fin 2) = t.val
    ∧ win1_5.index t (0 : Fin 2) = 0
    ∧ win1_5.index t (1 : Fin 2) = t.val :=
  (by decide +kernel : ∀ t : Fin grid1.N, _)

/-- Window 0's block at point t is columns 256 t … 256 t + 255 of the first term. -/
theorem first_apply (c : Dev nD) (t : Fin cfg1.N) (p : Fin 64) (q : Fin 256) (r : Fin 4096) (hr : r.val = 256 * t.val + q.val) :
    (iblk1 V c 0 t : Vec Ideal S64x256 .f32) (ix2 p q) = (V c main_call0_v0_0 : S64x4096.Idx → EReal) (ix2 p r) := by
  have e := where1 t
  unfold iblk1
  rw [View.read_apply]
  show V c main_call0_v0_0 _ = V c main_call0_v0_0 _
  congr 1
  funext a
  apply Fin.ext
  match a with
  | ⟨0, _⟩ => show win1_0.index t (0 : Fin 2) * 64 + 1 * p.val = p.val; omega
  | ⟨1, _⟩ => show win1_0.index t (1 : Fin 2) * 256 + 1 * q.val = r.val; omega

/-- Window 1's block is the whole [64, 4096] intermediate array. -/
theorem upper_apply (c : Dev nD) (t : Fin cfg1.N) (p : Fin 64) (k : Fin 4096) :
    (iblk1 V c 1 t : Vec Ideal S64x4096 .f32) (ix2 p k) = (V c main_call0_v0_1 : S64x4096.Idx → EReal) (ix2 p k) := by
  have e := where1 t
  unfold iblk1
  rw [View.read_apply]
  show V c main_call0_v0_1 _ = V c main_call0_v0_1 _
  congr 1
  funext a
  apply Fin.ext
  match a with
  | ⟨0, _⟩ => show win1_1.index t (0 : Fin 2) * 64 + 1 * p.val = p.val; omega
  | ⟨1, _⟩ => show win1_1.index t (1 : Fin 2) * 4096 + 1 * k.val = k.val; omega

/-- Window 2's block is the whole [64, 4096] intermediate array. -/
theorem lower_apply (c : Dev nD) (t : Fin cfg1.N) (p : Fin 64) (k : Fin 4096) :
    (iblk1 V c 2 t : Vec Ideal S64x4096 .f32) (ix2 p k) = (V c main_call0_v0_2 : S64x4096.Idx → EReal) (ix2 p k) := by
  have e := where1 t
  unfold iblk1
  rw [View.read_apply]
  show V c main_call0_v0_2 _ = V c main_call0_v0_2 _
  congr 1
  funext a
  apply Fin.ext
  match a with
  | ⟨0, _⟩ => show win1_2.index t (0 : Fin 2) * 64 + 1 * p.val = p.val; omega
  | ⟨1, _⟩ => show win1_2.index t (1 : Fin 2) * 4096 + 1 * k.val = k.val; omega

/-- Window 3's block at point t is columns 256 t … 256 t + 255 of its operator. -/
theorem opU_apply (c : Dev nD) (t : Fin cfg1.N) (k : Fin 4096) (q : Fin 256) (r : Fin 4096) (hr : r.val = 256 * t.val + q.val) :
    (iblk1 V c 3 t : Vec Ideal S4096x256 .f32) (ix2 k q) = (V c main_arg1 : S4096x4096.Idx → EReal) (ix2 k r) := by
  have e := where1 t
  unfold iblk1
  rw [View.read_apply]
  show V c main_arg1 _ = V c main_arg1 _
  congr 1
  funext a
  apply Fin.ext
  match a with
  | ⟨0, _⟩ => show win1_3.index t (0 : Fin 2) * 4096 + 1 * k.val = k.val; omega
  | ⟨1, _⟩ => show win1_3.index t (1 : Fin 2) * 256 + 1 * q.val = r.val; omega

/-- Window 4's block at point t is columns 256 t … 256 t + 255 of its operator. -/
theorem opD_apply (c : Dev nD) (t : Fin cfg1.N) (k : Fin 4096) (q : Fin 256) (r : Fin 4096) (hr : r.val = 256 * t.val + q.val) :
    (iblk1 V c 4 t : Vec Ideal S4096x256 .f32) (ix2 k q) = (V c main_arg2 : S4096x4096.Idx → EReal) (ix2 k r) := by
  have e := where1 t
  unfold iblk1
  rw [View.read_apply]
  show V c main_arg2 _ = V c main_arg2 _
  congr 1
  funext a
  apply Fin.ext
  match a with
  | ⟨0, _⟩ => show win1_4.index t (0 : Fin 2) * 4096 + 1 * k.val = k.val; omega
  | ⟨1, _⟩ => show win1_4.index t (1 : Fin 2) * 256 + 1 * q.val = r.val; omega

/-- What point t writes back: column block t of the whole-array function. -/
theorem flushed_out (c : Dev nD) (t : Fin cfg1.N) :
    (dat1 V c).flushed 5 t = ((cfg1.win 5).blk t).view.read (Elt Ideal)
      (Layer.combined (V c main_call0_v0_0) (V c main_call0_v0_1) (V c main_call0_v0_2) (V c main_arg1) (V c main_arg2)) := by
  show (cfg1.win 5).cut (grid1.coords t) ((dat1 V c).after 5 t) = _
  rw [after1_5]
  unfold out1_5
  rw [View.canon_unit_zero hz]
  simp only [View.ld_unit_zero (S := S64x4096) hz, View.ld_unit_zero (S := S4096x256) hz, View.ld_unit_zero (S := S64x256) hz]
  funext y
  obtain ⟨p, q, rfl⟩ : ∃ (p : Fin 64) (q : Fin 256), y = ix2 p q := ⟨y 0, y 1, eq_ix2 y⟩
  have e := where1 t
  have ht : t.val < 16 := t.isLt
  have hr : 256 * t.val + q.val < 4096 := by have := q.isLt; omega
  rw [View.read_apply]
  have hemb : ((cfg1.win 5).blk t).view.emb (ix2 p q) = (ix2 p (⟨256 * t.val + q.val, hr⟩ : Fin 4096) : S64x4096.Idx) := by
    funext a
    apply Fin.ext
    match a with
    | ⟨0, _⟩ => show win1_5.index t (0 : Fin 2) * 64 + 1 * p.val = p.val; omega
    | ⟨1, _⟩ => show win1_5.index t (1 : Fin 2) * 256 + 1 * q.val = 256 * t.val + q.val; omega
  show k1_pay1 (iblk1 V c 1 t) (iblk1 V c 3 t) (iblk1 V c 2 t) (iblk1 V c 4 t) (iblk1 V c 0 t) (ix2 p q)
    = Layer.combined (V c main_call0_v0_0) (V c main_call0_v0_1) (V c main_call0_v0_2) (V c main_arg1) (V c main_arg2) (((cfg1.win 5).blk t).view.emb (ix2 p q))
  rw [hemb]
  refine (Entry.combined_apply _ _ _ _ _ p q).trans ?_
  simp only [Layer.combined, Layer.ofCoords_ix2, Layer.colDot]
  rw [first_apply V c t p q ⟨256 * t.val + q.val, hr⟩ rfl]
  congr 1
  · congr 1
    refine congrArg Ideal.tanh (Finset.sum_congr rfl fun k _ => ?_)
    rw [upper_apply V c t p k, opU_apply V c t k q ⟨256 * t.val + q.val, hr⟩ rfl]
  · refine congrArg Ideal.tanh (Finset.sum_congr rfl fun k _ => ?_)
    rw [lower_apply V c t p k, opD_apply V c t k q ⟨256 * t.val + q.val, hr⟩ rfl]

/-- Every entry of the [64, 4096] output lies in some point's column block: column j in block j / 256. -/
theorem cover_out (i : S64x4096.Idx) : ∃ t : Fin cfg1.N, (cfg1.win 5).flush t = true ∧ i ∈ ((cfg1.win 5).blk t).view.set := by
  have hi0 : (i 0).val < 64 := idx2_lt0 i
  have hi1 : (i 1).val < 4096 := idx2_lt1 i
  have hN : cfg1.N = 16 := N_1
  let t : Fin cfg1.N := ⟨(i 1).val / 256, by rw [hN]; omega⟩
  have e := where1 t
  have htv : t.val = (i 1).val / 256 := rfl
  refine ⟨t, flush1_5 t, ?_⟩
  show i ∈ ((View.whole main_v0).slice (win1_5.rect t)).set
  rw [View.set_slice_whole, Rect.mem_set_unit]
  intro a
  match a with
  | ⟨0, _⟩ => show win1_5.index t (0 : Fin 2) * 64 ≤ (i 0).val ∧ (i 0).val < win1_5.index t (0 : Fin 2) * 64 + 64; omega
  | ⟨1, _⟩ => show win1_5.index t (1 : Fin 2) * 256 ≤ (i 1).val ∧ (i 1).val < win1_5.index t (1 : Fin 2) * 256 + 256; omega

/-- The output array when the region ends. -/
theorem final_out (c : Dev nD) : (dat1 V c).arrAt 5 cfg1.N
    = Layer.combined (V c main_call0_v0_0) (V c main_call0_v0_1) (V c main_call0_v0_2) (V c main_arg1) (V c main_arg2) :=
  (dat1 V c).arrAt_eq_of_cover 5 _ (fun t _ => flushed_out V c t) (cover_out)

end Cert.KernelIdeal.PhaseB

end
-- ==== Proof.Whole.lean ====
/-
  The whole program: the second region is entered with what the first one leaves, so the result array ends at the layer's
  function of the six argument arrays.

  The first region writes the squashed projection and the two plain projections from the activations and the three weight
  matrices as launched; it writes neither operator, so the second region finds the operators as launched and the three
  intermediate arrays at those functions, and its output is the layer.
-/
import proofs.«163209_g29257317220555_retrytranche2_756_3_alg».proof.Proof.RunNamed
import proofs.«163209_g29257317220555_retrytranche2_756_3_alg».proof.Proof.PhaseA
import proofs.«163209_g29257317220555_retrytranche2_756_3_alg».proof.Proof.PhaseB

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the second region is entered with: the first term, -/
theorem entry_first (c : Dev nD) : V1 m ρ c main_call0_v0_0
    = Layer.squashed (m ((c.tc : Thread nD τ).loc main_arg0)) (m ((c.tc : Thread nD τ).loc main_arg3)) :=
  (W1_arr m ρ c 4).trans (PhaseA.final_squashed (V0 m ρ) c)
/-- the two intermediate products, -/
theorem entry_upper (c : Dev nD) : V1 m ρ c main_call0_v0_1
    = Layer.projected (m ((c.tc : Thread nD τ).loc main_arg0)) (m ((c.tc : Thread nD τ).loc main_arg4)) :=
  (W1_arr m ρ c 5).trans (PhaseA.final_projectedU (V0 m ρ) c)
theorem entry_lower (c : Dev nD) : V1 m ρ c main_call0_v0_2
    = Layer.projected (m ((c.tc : Thread nD τ).loc main_arg0)) (m ((c.tc : Thread nD τ).loc main_arg5)) :=
  (W1_arr m ρ c 6).trans (PhaseA.final_projectedD (V0 m ρ) c)
/-- and the two operators as launched. -/
theorem entry_opU (c : Dev nD) : V1 m ρ c main_arg1 = m ((c.tc : Thread nD τ).loc main_arg1) :=
  W1_of_ne m ρ c main_arg1 (by decide)
theorem entry_opD (c : Dev nD) : V1 m ρ c main_arg2 = m ((c.tc : Thread nD τ).loc main_arg2) :=
  W1_of_ne m ρ c main_arg2 (by decide)

/-- The result array after the run is the layer of the arguments as launched. -/
theorem result_eq (c : Dev nD) : W2 m ρ c (Proc.devRef .tc main_v0)
    = Layer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  refine (W2_arr m ρ c 5).trans ?_
  rw [PhaseB.final_out (V1 m ρ) c, entry_first, entry_upper, entry_lower, entry_opU, entry_opD]
  rfl

/-- The run, read: the result array at the layer, the arguments unchanged. -/
theorem run : θ_run defs (onTc (τ := τ) (main (F := Ideal))) ⟨m, fun _ => 0, ρ⟩ (fun r => ∀ c : Dev nD,
      r.2.mem ((c.tc : Thread nD τ).loc main_v0) = Layer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run_named m ρ)

end Cert.KernelIdeal.Whole

end
-- ==== Proof.RefSide.lean ====
/-
  The reference program's result, read at one entry (d, j) of the [64, 4096] output, on the extended reals:
    (tanh (∑ k, x d k · ws j k) + tanh (∑ k', (∑ k, x d k · wu k' k) · lu k' j)) + tanh (∑ k', (∑ k, x d k · wd k' k) · ld k' j).
  Each weight matrix is transposed before its product, so entry (k, j) of the transposed matrix is entry (j, k) of the
  matrix itself; each product contracts the left operand's columns with the right operand's rows.
-/
import proofs.«163209_g29257317220555_retrytranche2_756_3_alg».proof.Defs
import proofs.«163209_g29257317220555_retrytranche2_756_3_alg».proof.Proof.Gen.ReferenceIdeal.Run
import proofs.«163209_g29257317220555_retrytranche2_756_3_alg».proof.Proof.Gen.ReferenceIdeal.Read
import Idealize.ShloMosaic.Lib.ValueIdx
import Idealize.ShloMosaic.PureOps.Ideal.Laws

noncomputable section

namespace Cert.ReferenceIdeal.Entry

open Cert.ReferenceIdeal Cert.ReferenceIdeal.Gen Cert.ReferenceIdeal.Read Idealize.ShloMosaic Idealize.ShloMosaic.ValueIdx
open scoped BigOperators

/-! ## The index maps of the products and of the transposes, at coordinates -/

theorem lidx1 (d : Fin 64) (j k : Fin 4096) : lidx_main_v1 (ix2 d j) k = ix2 d k :=
  funext fun a => by match a with | ⟨0, _⟩ => rfl | ⟨1, _⟩ => rfl
theorem ridx1 (d : Fin 64) (j k : Fin 4096) : ridx_main_v1 (ix2 d j) k = ix2 k j :=
  funext fun a => by match a with | ⟨0, _⟩ => rfl | ⟨1, _⟩ => rfl
theorem lidx4 (d : Fin 64) (j k : Fin 4096) : lidx_main_v4 (ix2 d j) k = ix2 d k :=
  funext fun a => by match a with | ⟨0, _⟩ => rfl | ⟨1, _⟩ => rfl
theorem ridx4 (d : Fin 64) (j k : Fin 4096) : ridx_main_v4 (ix2 d j) k = ix2 k j :=
  funext fun a => by match a with | ⟨0, _⟩ => rfl | ⟨1, _⟩ => rfl
theorem lidx5 (d : Fin 64) (j k : Fin 4096) : lidx_main_v5 (ix2 d j) k = ix2 d k :=
  funext fun a => by match a with | ⟨0, _⟩ => rfl | ⟨1, _⟩ => rfl
theorem ridx5 (d : Fin 64) (j k : Fin 4096) : ridx_main_v5 (ix2 d j) k = ix2 k j :=
  funext fun a => by match a with | ⟨0, _⟩ => rfl | ⟨1, _⟩ => rfl
theorem lidx8 (d : Fin 64) (j k : Fin 4096) : lidx_main_v8 (ix2 d j) k = ix2 d k :=
  funext fun a => by match a with | ⟨0, _⟩ => rfl | ⟨1, _⟩ => rfl
theorem ridx8 (d : Fin 64) (j k : Fin 4096) : ridx_main_v8 (ix2 d j) k = ix2 k j :=
  funext fun a => by match a with | ⟨0, _⟩ => rfl | ⟨1, _⟩ => rfl
theorem lidx9 (d : Fin 64) (j k : Fin 4096) : lidx_main_v9 (ix2 d j) k = ix2 d k :=
  funext fun a => by match a with | ⟨0, _⟩ => rfl | ⟨1, _⟩ => rfl
theorem ridx9 (d : Fin 64) (j k : Fin 4096) : ridx_main_v9 (ix2 d j) k = ix2 k j :=
  funext fun a => by match a with | ⟨0, _⟩ => rfl | ⟨1, _⟩ => rfl
theorem tidx0 (k j : Fin 4096) : idx_main_v0 (ix2 k j) = ix2 j k :=
  funext fun a => by match a with | ⟨0, _⟩ => rfl | ⟨1, _⟩ => rfl
theorem tidx3 (k j : Fin 4096) : idx_main_v3 (ix2 k j) = ix2 j k :=
  funext fun a => by match a with | ⟨0, _⟩ => rfl | ⟨1, _⟩ => rfl
theorem tidx7 (k j : Fin 4096) : idx_main_v7 (ix2 k j) = ix2 j k :=
  funext fun a => by match a with | ⟨0, _⟩ => rfl | ⟨1, _⟩ => rfl

/-- The reference's result at entry (d, j). `x` the activations, `lu`, `ld` the two operators, `ws`, `wu`, `wd` the
    three weight matrices (in the order of @main's arguments). -/
theorem result_apply (x : (⟨S64x4096, .f32⟩ : BufTy).Contents (Elt Ideal)) (lu ld ws wu wd : (⟨S4096x4096, .f32⟩ : BufTy).Contents (Elt Ideal))
    (d : Fin 64) (j : Fin 4096) :
    val_main_v12 (F := Ideal) x lu ld ws wu wd (ix2 d j)
      = (Ideal.tanh (∑ k : Fin 4096, x (ix2 d k) * ws (ix2 j k))
          + Ideal.tanh (∑ k' : Fin 4096, (∑ k : Fin 4096, x (ix2 d k) * wu (ix2 k' k)) * lu (ix2 k' j)))
        + Ideal.tanh (∑ k' : Fin 4096, (∑ k : Fin 4096, x (ix2 d k) * wd (ix2 k' k)) * ld (ix2 k' j)) := by
  rw [val_main_v12_apply, val_main_v11_apply, val_main_v2_apply, val_main_v6_apply, val_main_v10_apply,
    val_main_v1_apply, val_main_v5_apply, val_main_v9_apply]
  simp only [lidx1, ridx1, lidx5, ridx5, lidx9, ridx9, val_main_v4_apply, val_main_v8_apply, lidx4, ridx4, lidx8, ridx8,
    val_main_v0_apply, val_main_v3_apply, val_main_v7_apply, tidx0, tidx3, tidx7,
    Ideal.hostUnary_tanh_def, Ideal.addf_def]

end Cert.ReferenceIdeal.Entry

end
-- ==== Proof.lean ====
/-
  The certificate of one graph-network layer,
    out = tanh (X · W_sᵀ) + tanh ((X · W_uᵀ) · L_u) + tanh ((X · W_dᵀ) · L_d),
  X of shape [64, 4096] and the five other operands [4096, 4096].

  The kernel computes it in two passes over 16 column blocks: the first writes tanh (X · W_sᵀ), X · W_uᵀ and X · W_dᵀ block by
  block; the second reads those and writes (first + tanh ((X · W_uᵀ) · L_u)) + tanh ((X · W_dᵀ) · L_d) block by block. The
  reference transposes each weight matrix, takes the same products and adds the three terms in the same order. On the
  extended reals a change of float format is the identity and a matrix product is the plain sum over the contracted axis, so
  entry by entry both programs compute the same expression: no law of arithmetic is needed, only the re-indexing of blocks
  to arrays and of a transposed matrix to the matrix. The precondition is not used by the value claim.
-/
import proofs.«163209_g29257317220555_retrytranche2_756_3_alg».proof.Defs
import proofs.«163209_g29257317220555_retrytranche2_756_3_alg».proof.Proof.Gen.Kernel
import proofs.«163209_g29257317220555_retrytranche2_756_3_alg».proof.Proof.Gen.Kernel.Frame
import proofs.«163209_g29257317220555_retrytranche2_756_3_alg».proof.Proof.Gen.KernelIdeal
import proofs.«163209_g29257317220555_retrytranche2_756_3_alg».proof.Proof.Gen.KernelIdeal.Frame
import proofs.«163209_g29257317220555_retrytranche2_756_3_alg».proof.Proof.Gen.ReferenceIdeal
import proofs.«163209_g29257317220555_retrytranche2_756_3_alg».proof.Proof.Gen.ReferenceIdeal.Run
import proofs.«163209_g29257317220555_retrytranche2_756_3_alg».proof.Proof.Gen.ReferenceIdeal.Read
import proofs.«163209_g29257317220555_retrytranche2_756_3_alg».proof.Proof.Gen.Pre_finite_inputs
import proofs.«163209_g29257317220555_retrytranche2_756_3_alg».proof.Proof.Whole
import proofs.«163209_g29257317220555_retrytranche2_756_3_alg».proof.Proof.RefSide
import Idealize.ShloMosaic.Adequacy
import Idealize.ShloMosaic.Init

noncomputable section

namespace Cert.Proof

open Idealize.ShloMosaic Idealize.ShloMosaic.ValueIdx Idealize.SL.Sem

/-- Both kernel programs run, fault-free, and leave their arguments as launched. -/
theorem frame_k : Cert.frame_Kernel := fun m ρ _ => Cert.Kernel.Gen.frame m ρ
theorem frame_ki : Cert.frame_KernelIdeal := fun m ρ _ => Cert.KernelIdeal.Gen.frame m ρ
/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the (agreeing) arguments in their result array. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v12_eq]
  funext i
  obtain ⟨d, j, rfl⟩ : ∃ (d : Fin 64) (j : Fin 4096), i = ix2 d j := ⟨i 0, i 1, eq_ix2 i⟩
  rw [Cert.ReferenceIdeal.Entry.result_apply]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
